-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x200 : Shape := ⟨2, ![65536, 200]⟩
abbrev S_ : Shape := ⟨0, ![]⟩

class Facts : Prop where
  bcast_S_S65536x200 : S_.BroadcastsInDim S65536x200 (![] : Fin 0 → Fin S65536x200.rank)
  reducesTo_S65536x200_S_d0_1 : S65536x200.ReducesTo [0, 1] S_
  h_S_ : 0 < S_.numel

variable [Facts]

def fn {F : FTy → Type} [FloatOps F] (main_arg0 : IVec S65536x200 32) (main_arg1 : FVec F S65536x200 .f32) : IVec S_ 1 :=
  let main_v0 : FVec F S65536x200 .f32 := Host.absf main_arg1
  let main_cst : FVec F S_ .f32 := constant S_ .f32 0x7F800000#32
  let main_v1 : FVec F S65536x200 .f32 := broadcastInDim S65536x200 ![] bcast_S_S65536x200 main_cst
  let main_v2 : IVec S65536x200 1 := cmpf .olt main_v0 main_v1
  let main_c : IVec S_ 1 := constantI S_ 1 1#1
  let main_v3 : IVec S_ 1 := (fun x v => Host.reduce IntOp.andi x v reducesTo_S65536x200_S_d0_1 h_S_) main_v2 main_c
  let main_c_0 : IVec S_ 32 := constantI S_ 32 0#32
  let main_v4 : IVec S65536x200 32 := broadcastInDim S65536x200 ![] bcast_S_S65536x200 main_c_0
  let main_v5 : IVec S65536x200 1 := cmpi .sge main_arg0 main_v4
  let main_c_1 : IVec S_ 32 := constantI S_ 32 1000000#32
  let main_v6 : IVec S65536x200 32 := broadcastInDim S65536x200 ![] bcast_S_S65536x200 main_c_1
  let main_v7 : IVec S65536x200 1 := cmpi .sle main_arg0 main_v6
  let main_v8 : IVec S65536x200 1 := andi main_v5 main_v7
  let main_c_2 : IVec S_ 1 := constantI S_ 1 1#1
  let main_v9 : IVec S_ 1 := (fun x v => Host.reduce IntOp.andi x v reducesTo_S65536x200_S_d0_1 h_S_) main_v8 main_c_2
  let main_v10 : IVec S_ 1 := andi main_v3 main_v9
  main_v10
-- ==== Kernel.lean ====
abbrev S65536x200 : Shape := ⟨2, ![65536, 200]⟩
abbrev S102400x128 : Shape := ⟨2, ![102400, 128]⟩
abbrev S2x1024x1024 : Shape := ⟨3, ![2, 1024, 1024]⟩
abbrev S16x128 : Shape := ⟨2, ![16, 128]⟩
abbrev S1x1024x1024 : Shape := ⟨3, ![1, 1024, 1024]⟩
abbrev S1024x1024 : Shape := ⟨2, ![1024, 1024]⟩
abbrev S2048 : Shape := ⟨1, ![2048]⟩
abbrev S1024x1 : Shape := ⟨2, ![1024, 1]⟩
abbrev S1x1024 : Shape := ⟨2, ![1, 1024]⟩
abbrev S1x2048 : Shape := ⟨2, ![1, 2048]⟩
abbrev S1024x2048 : Shape := ⟨2, ![1024, 2048]⟩
abbrev S2048x1 : Shape := ⟨2, ![2048, 1]⟩
abbrev S2048x1024 : Shape := ⟨2, ![2048, 1024]⟩
abbrev S1048576 : Shape := ⟨1, ![1048576]⟩
abbrev S1000001 : Shape := ⟨1, ![1000001]⟩

abbrev nBuf : Space → Nat
  | .hbm => 13
  | .vmem => 7
  | .smem => 0
  | _ => 0

abbrev bufTy : (tb : Table) → Fin (tcTables nBuf tb) → BufTy
  | .hbm, ⟨0, _⟩ => ⟨S65536x200, .i32⟩
  | .hbm, ⟨1, _⟩ => ⟨S65536x200, .f32⟩
  | .hbm, ⟨2, _⟩ => ⟨S102400x128, .i32⟩
  | .hbm, ⟨3, _⟩ => ⟨S102400x128, .f32⟩
  | .hbm, ⟨4, _⟩ => ⟨S2x1024x1024, .f32⟩
  | .hbm, ⟨5, _⟩ => ⟨S1x1024x1024, .f32⟩
  | .hbm, ⟨6, _⟩ => ⟨S1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1048576, .f32⟩
  | .hbm, ⟨11, _⟩ => ⟨S1000001, .f32⟩
  | .hbm, ⟨12, _⟩ => ⟨S1000001, .i32⟩
  | .local _ .vmem, ⟨0, _⟩ => ⟨S16x128, .i32⟩
  | .local _ .vmem, ⟨1, _⟩ => ⟨S16x128, .i32⟩
  | .local _ .vmem, ⟨2, _⟩ => ⟨S16x128, .f32⟩
  | .local _ .vmem, ⟨3, _⟩ => ⟨S16x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S65536x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3200], ![false, false]⟩

def k0_cond2 (i : grid0.Coords) : BitVec 1 :=
  let arg1 : BitVec 32 := BitVec.ofNat 32 (i 1).val
  let c3199_i32 : BitVec 32 := 3199#32
  let v39 : BitVec 1 := Scalar.cmpi .eq arg1 c3199_i32
  let v40 : BitVec 32 := Scalar.extui v39
  let c0_i32_8 : BitVec 32 := 0#32
  let v41 : BitVec 1 := Scalar.cmpi .ne v40 c0_i32_8
  v41

def cc0_transform_0 (i : grid0.Coords) : Fin 2 → Nat :=
  let arg0 : BitVec 32 := BitVec.ofNat 32 (i 0).val
  let arg1 : BitVec 32 := BitVec.ofNat 32 (i 1).val
  let c3200_i32 : BitVec 32 := 3200#32
  let v0 : BitVec 32 := Scalar.muli arg0 c3200_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3200_i32 : BitVec 32 := 3200#32
  let v0 : BitVec 32 := Scalar.muli arg0 c3200_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536x200_S102400x128 : S65536x200.ShapeCasts S102400x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S2048 : S16x128.ShapeCasts S2048
  iota_S1024x1_d0_w32 : S1024x1.Iotas .tc 32 [0]
  iota_S1x1024_d1_w32 : S1x1024.Iotas .tc 32 [1]
  shapeCasts_S2048_S1x2048 : S2048.ShapeCasts S1x2048
  broadcasts_S1024x1_S1024x2048 : S1024x1.Broadcasts S1024x2048
  broadcasts_S1x2048_S1024x2048 : S1x2048.Broadcasts S1024x2048
  natLt_1_32 : 1 < 32
  bitsLt_bf16_f32 : FTy.bits .bf16 < FTy.bits .f32
  shapeCasts_S2048_S2048x1 : S2048.ShapeCasts S2048x1
  broadcasts_S2048x1_S2048x1024 : S2048x1.Broadcasts S2048x1024
  broadcasts_S1x1024_S2048x1024 : S1x1024.Broadcasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S2x1024x1024_S1x1024x1024_0_0_0 : S2x1024x1024.Slices ![0, 0, 0] S1x1024x1024
  slices_S2x1024x1024_S1x1024x1024_1_0_0 : S2x1024x1024.Slices ![1, 0, 0] S1x1024x1024
  shapeCasts_S1024x1024_S1048576 : S1024x1024.ShapeCasts S1048576
  slices_S1048576_S1000001_0 : S1048576.Slices ![0] S1000001
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S102400x128.size a
  hwx0_0 : ∀ i : grid0.Coords, EltTy.bits .i32 = 32 ∨ (Rect.block (s := S102400x128) S16x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S102400x128.size a
  hwx0_1 : ∀ i : grid0.Coords, EltTy.bits .f32 = 32 ∨ (Rect.block (s := S102400x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x1024x1024.size a
  hwx0_2 : ∀ i : grid0.Coords, EltTy.bits .f32 = 32 ∨ (Rect.block (s := S2x1024x1024) S1x1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x200 : Shape := ⟨2, ![65536, 200]⟩
abbrev S13107200 : Shape := ⟨1, ![13107200]⟩
abbrev S_ : Shape := ⟨0, ![]⟩
abbrev S1000001 : Shape := ⟨1, ![1000001]⟩
abbrev S13107200x1 : Shape := ⟨2, ![13107200, 1]⟩

abbrev nBuf : Space → Nat
  | .hbm => 16
  | .vmem => 0
  | .smem => 0
  | _ => 0

abbrev bufTy : (tb : Table) → Fin (tcTables nBuf tb) → BufTy
  | .hbm, ⟨0, _⟩ => ⟨S65536x200, .i32⟩
  | .hbm, ⟨1, _⟩ => ⟨S65536x200, .f32⟩
  | .hbm, ⟨2, _⟩ => ⟨S13107200, .i32⟩
  | .hbm, ⟨3, _⟩ => ⟨S13107200, .f32⟩
  | .hbm, ⟨4, _⟩ => ⟨S_, .f32⟩
  | .hbm, ⟨5, _⟩ => ⟨S1000001, .f32⟩
  | .hbm, ⟨6, _⟩ => ⟨S_, .i32⟩
  | .hbm, ⟨7, _⟩ => ⟨S13107200, .i32⟩
  | .hbm, ⟨8, _⟩ => ⟨S13107200, .i1⟩
  | .hbm, ⟨9, _⟩ => ⟨S_, .i32⟩
  | .hbm, ⟨10, _⟩ => ⟨S13107200, .i32⟩
  | .hbm, ⟨11, _⟩ => ⟨S13107200, .i32⟩
  | .hbm, ⟨12, _⟩ => ⟨S13107200, .i32⟩
  | .hbm, ⟨13, _⟩ => ⟨S13107200x1, .i32⟩
  | .hbm, ⟨14, _⟩ => ⟨S1000001, .f32⟩
  | .hbm, ⟨15, _⟩ => ⟨S1000001, .i32⟩
  | _, _ => ⟨S65536x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S65536x200_S13107200 : S65536x200.ShapeCasts S13107200
  bcast_S_S1000001 : S_.BroadcastsInDim S1000001 (![] : Fin 0 → Fin S1000001.rank)
  bcast_S_S13107200 : S_.BroadcastsInDim S13107200 (![] : Fin 0 → Fin S13107200.rank)
  bcast_S13107200_S13107200x1_0 : S13107200.BroadcastsInDim S13107200x1 (![0] : Fin 1 → Fin S13107200x1.rank)
  scatter_S1000001_S13107200x1_S13107200_n_0_0_1_wf : ScatterDims.WF S1000001 S13107200x1 S13107200 [] [0] [0] 1

variable [Facts₀]

def scatter_S1000001_S13107200x1_S13107200_n_0_0_1 : ScatterDims S1000001 S13107200x1 S13107200 where
  updateWindowDims := []
  insertedWindowDims := [0]
  scatterDimsToOperandDims := [0]
  indexVectorDim := 1
  wf := scatter_S1000001_S13107200x1_S13107200_n_0_0_1_wf

class Facts : Prop extends Facts₀ where

variable [Facts]
-- ==== Proof.Pieces.lean ====
/-
  What one run of the kernel body leaves behind, as values.

  The body keeps a [1024,1024] accumulator between grid points. At the first point of a core's run it
  fills the accumulator with zeros and then adds the block's product to it; at every later point it adds
  the block's product to what the point before left; at the last point it also copies the accumulator,
  given a leading unit axis, to the output block. Each such value is one store over the whole buffer, so
  what the buffer holds afterwards is that store's value, and a load of the whole buffer reads what the
  last whole store left.
-/
import proofs.«419213_j26508538151782_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.Hist.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point that is not the last: the accumulator becomes the old accumulator plus the block's product. -/
theorem sout_B (c : Dev nD) (i : grid0.Coords) (arg2 : Memref sig .tc .vmem S16x128 .i32) (harg2 : arg2.IsWhole)
    (arg3 : Memref sig .tc .vmem S16x128 .f32) (harg3 : arg3.IsWhole) (arg4 : Memref sig .tc .vmem S1x1024x1024 .f32) (harg4 : arg4.IsWhole)
    (arg5 : Memref sig .tc .vmem S1024x1024 .f32) (harg5 : arg5.IsWhole) (hc0 : ¬cond0_0 i) (hc1 : ¬cond0_1 i)
    (x0 : Vec F S16x128 .i32) (x1 : Vec F S16x128 .f32) (xs0 : Vec F S1024x1024 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.readCov_unit_zero (S := S1024x1024) _ hz2,
    View.ld_unit_zero (S := S16x128) hz2, View.ld_unit_zero (S := S1024x1024) hz2]

/-- The first point of a core's run: zeros, then the block's product added to them. -/
theorem sout_A (c : Dev nD) (i : grid0.Coords) (arg2 : Memref sig .tc .vmem S16x128 .i32) (harg2 : arg2.IsWhole)
    (arg3 : Memref sig .tc .vmem S16x128 .f32) (harg3 : arg3.IsWhole) (arg4 : Memref sig .tc .vmem S1x1024x1024 .f32) (harg4 : arg4.IsWhole)
    (arg5 : Memref sig .tc .vmem S1024x1024 .f32) (harg5 : arg5.IsWhole) (hc0 : cond0_0 i) (hc1 : ¬cond0_1 i)
    (x0 : Vec F S16x128 .i32) (x1 : Vec F S16x128 .f32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) hz2]
  simp only [View.readAt_eq_ld, harg2.read_unread, harg3.read_unread, harg5.read_unread,
    View.readCov_unit_zero (S := S1024x1024) _ hz2,
    View.ld_unit_zero (S := S16x128) hz2, View.ld_unit_zero (S := S1024x1024) hz2]

/-- The last point of a core's run leaves the same accumulator as any later point, -/
theorem sout_C (c : Dev nD) (i : grid0.Coords) (arg2 : Memref sig .tc .vmem S16x128 .i32) (harg2 : arg2.IsWhole)
    (arg3 : Memref sig .tc .vmem S16x128 .f32) (harg3 : arg3.IsWhole) (arg4 : Memref sig .tc .vmem S1x1024x1024 .f32) (harg4 : arg4.IsWhole)
    (arg5 : Memref sig .tc .vmem S1024x1024 .f32) (harg5 : arg5.IsWhole) (hc0 : ¬cond0_0 i) (hc1 : cond0_1 i)
    (x0 : Vec F S16x128 .i32) (x1 : Vec F S16x128 .f32) (xs0 : Vec F S1024x1024 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.readCov_unit_zero (S := S1024x1024) _ hz2,
    View.ld_unit_zero (S := S16x128) hz2, View.ld_unit_zero (S := S1024x1024) hz2]

/-- and copies it to the output block. -/
theorem out_C (c : Dev nD) (i : grid0.Coords) (arg2 : Memref sig .tc .vmem S16x128 .i32) (harg2 : arg2.IsWhole)
    (arg3 : Memref sig .tc .vmem S16x128 .f32) (harg3 : arg3.IsWhole) (arg4 : Memref sig .tc .vmem S1x1024x1024 .f32) (harg4 : arg4.IsWhole)
    (arg5 : Memref sig .tc .vmem S1024x1024 .f32) (harg5 : arg5.IsWhole) (hc0 : ¬cond0_0 i) (hc1 : cond0_1 i)
    (x0 : Vec F S16x128 .i32) (x1 : Vec F S16x128 .f32) (xs0 : Vec F S1024x1024 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.readCov_unit_zero (S := S1024x1024) _ hz2,
    View.ld_unit_zero (S := S16x128) hz2, View.ld_unit_zero (S := S1024x1024) hz2]

end Cert.Hist.Pieces

end
-- ==== Proof.Spec.lean ====
/-
  The weighted histogram, stated once, and the arithmetic that both programs are measured against.

  An input position n (0 ≤ n < 65536·200, row-major) carries an id word and a weight. Bin i of the
  histogram is the sum of the weights of the positions whose id, read as a natural number, is i.

  The kernel splits an id x into its high part x >>> 10 and its low part x &&& 1023 and marks a
  position for the bin (a, b) by the product of two 0/1 indicators, "high part is a" and "low part
  is b", times the weight; for a, b < 1024 that product is the weight when x = 1024·a + b and 0
  otherwise (`term_eq`). A sum over consecutive blocks of K positions is a sum over the positions
  (`sum_blocks`). Nothing here depends on a program.
-/
import Idealize.ShloMosaic.PureOps.Ideal
import Idealize.ShloMosaic.Lib.ValueIdx
import Mathlib.Algebra.BigOperators.Intervals
import Mathlib.Algebra.BigOperators.Fin

noncomputable section

open scoped BigOperators

namespace Cert.Hist

open Idealize.ShloMosaic Idealize.ShloMosaic.ValueIdx

/-- The number of input positions. -/
abbrev NPos : Nat := 13107200

/-- Position n of a [65536, 200] array in row-major order: row n / 200, column n % 200. -/
abbrev unflat (n : Fin NPos) : (⟨2, ![65536, 200]⟩ : Shape).Idx :=
  ix2 ⟨n.val / 200, by have h : n.val < 13107200 := n.isLt; omega⟩ ⟨n.val % 200, Nat.mod_lt _ (by norm_num)⟩

/-- What position n contributes to bin i: its weight when its id is i, nothing otherwise
    (and nothing past the last position). -/
def item (ids : (⟨2, ![65536, 200]⟩ : Shape).Idx → BitVec 32) (w : (⟨2, ![65536, 200]⟩ : Shape).Idx → EReal)
    (i n : Nat) : EReal :=
  if h : n < NPos then (if (ids (unflat ⟨n, h⟩)).toNat = i then w (unflat ⟨n, h⟩) else 0) else 0

/-- Bin i of the weighted histogram. -/
def hist (ids : (⟨2, ![65536, 200]⟩ : Shape).Idx → BitVec 32) (w : (⟨2, ![65536, 200]⟩ : Shape).Idx → EReal)
    (i : Nat) : EReal :=
  ∑ n ∈ Finset.range NPos, item ids w i n

/-- The same over the positions as a finite type. -/
theorem hist_eq_sum_fin (ids : (⟨2, ![65536, 200]⟩ : Shape).Idx → BitVec 32)
    (w : (⟨2, ![65536, 200]⟩ : Shape).Idx → EReal) (i : Nat) :
    hist ids w i = ∑ n : Fin NPos, if (ids (unflat n)).toNat = i then w (unflat n) else 0 := by
  unfold hist
  rw [Finset.sum_range]
  refine Finset.sum_congr rfl fun n _ => ?_
  unfold item
  rw [dif_pos n.isLt]

/-! ## The indicator words -/

/-- An equality test widened to 32 bits and read as a signed number is 1 or 0. -/
theorem onehot (x y : BitVec 32) :
    ((((IntOp.cmpi .eq x y).setWidth 32).toInt : ℝ) : EReal) = if x = y then 1 else 0 := by
  unfold IntOp.cmpi
  by_cases h : x = y
  · subst h
    simp
  · have hb : (x == y) = false := by simpa using h
    simp [hb, h]

/-- The logical shift by ten and the mask by 1023 recover the two base-1024 digits. -/
theorem word_split (x : BitVec 32) (a b : Nat) (ha : a < 1024) (hb : b < 1024) :
    (BitVec.ofNat 32 a = IntOp.shrui .vector x 10#32 ∧ IntOp.andi x 1023#32 = BitVec.ofNat 32 b)
      ↔ x.toNat = 1024 * a + b := by
  have hx := x.isLt
  have e1 : IntOp.shrui .vector x 10#32 = x >>> 10 := by
    unfold IntOp.shrui
    rw [if_pos (by decide)]
    rfl
  have e2 : (x >>> 10).toNat = x.toNat / 1024 := by
    rw [BitVec.toNat_ushiftRight, Nat.shiftRight_eq_div_pow]
  have e3 : (IntOp.andi x 1023#32).toNat = x.toNat % 1024 := by
    unfold IntOp.andi
    rw [BitVec.toNat_and]
    exact Nat.and_two_pow_sub_one_eq_mod x.toNat 10
  rw [e1]
  constructor
  · rintro ⟨h1, h2⟩
    have g1 := congrArg BitVec.toNat h1
    have g2 := congrArg BitVec.toNat h2
    rw [e2, BitVec.toNat_ofNat] at g1
    rw [e3, BitVec.toNat_ofNat] at g2
    omega
  · intro h
    constructor
    · apply BitVec.eq_of_toNat_eq
      rw [e2, BitVec.toNat_ofNat]
      omega
    · apply BitVec.eq_of_toNat_eq
      rw [e3, BitVec.toNat_ofNat]
      omega

/-- The kernel's mark of an id for the bin (a, b), times the weight. -/
theorem term_eq (x : BitVec 32) (w : EReal) (a b : Nat) (ha : a < 1024) (hb : b < 1024) :
    ((((IntOp.cmpi .eq (BitVec.ofNat 32 a) (IntOp.shrui .vector x 10#32)).setWidth 32).toInt : ℝ) : EReal)
        * (((((IntOp.cmpi .eq (IntOp.andi x 1023#32) (BitVec.ofNat 32 b)).setWidth 32).toInt : ℝ) : EReal) * w)
      = if x.toNat = 1024 * a + b then w else 0 := by
  rw [onehot, onehot]
  by_cases h : x.toNat = 1024 * a + b
  · obtain ⟨h1, h2⟩ := (word_split x a b ha hb).mpr h
    rw [if_pos h1, if_pos h2, if_pos h, one_mul, one_mul]
  · rw [if_neg h]
    by_cases h1 : BitVec.ofNat 32 a = IntOp.shrui .vector x 10#32
    · have h2 : ¬ IntOp.andi x 1023#32 = BitVec.ofNat 32 b := fun h2 => h ((word_split x a b ha hb).mp ⟨h1, h2⟩)
      rw [if_pos h1, if_neg h2, zero_mul, mul_zero]
    · rw [if_neg h1, zero_mul]

/-! ## Sums over consecutive blocks -/

/-- S consecutive blocks of K positions, starting at block b, are the K·S positions from K·b on. -/
theorem sum_blocks {β : Type*} [AddCommMonoid β] (E : Nat → β) (K b : Nat) :
    ∀ S : Nat, ∑ s ∈ Finset.range S, ∑ k ∈ Finset.range K, E (K * (b + s) + k)
      = ∑ j ∈ Finset.range (K * S), E (K * b + j)
  | 0 => by simp
  | S + 1 => by
    rw [Finset.sum_range_succ, sum_blocks E K b S, Nat.mul_succ, Finset.sum_range_add]
    congr 1
    refine Finset.sum_congr rfl fun k _ => ?_
    congr 1
    ring

/-- Two halves of the positions make the whole. -/
theorem sum_halves {β : Type*} [AddCommMonoid β] (E : Nat → β) (H : Nat) :
    ∑ j ∈ Finset.range H, E j + ∑ j ∈ Finset.range H, E (H + j) = ∑ j ∈ Finset.range (H + H), E j :=
  (Finset.sum_range_add E H H).symm

end Cert.Hist

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.Payload.lean ====
/-
  The kernel body's three stored values, read at an index.

  The flush stores the accumulator under a leading unit axis; the first step of a row stores the zero
  matrix; every step stores the old accumulator plus a matrix product. The left factor of that product
  is, at (a, k), the 0/1 mark "the high part of id k is a"; the right factor is, at (k, b), the 0/1 mark
  "the low part of id k is b" times weight k; id k and weight k are the block's entries at row k / 128,
  column k % 128. So the product at (a, b) is the sum over the block's 2048 positions of the weight of
  those whose id is 1024·a + b.
-/
import proofs.«419213_j26508538151782_3_alg».proof.Proof.Gen.KernelIdeal.Skeleton
import proofs.«419213_j26508538151782_3_alg».proof.Proof.Spec
import proofs.«419213_j26508538151782_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hist.Payload

open Idealize.ShloMosaic Idealize.ShloMosaic.ValueIdx
open Cert.KernelIdeal Cert.KernelIdeal.Gen

/-! ## The layout operations of the step, each at explicit coordinates -/

section Layout
variable {α : Type}

/-- A [16, 128] block flattened to 2048 entries reads, at k, the block at (k / 128, k % 128). -/
theorem flat_apply (x : S16x128.Idx → α) (h : S16x128.ShapeCasts S2048) (k : Fin 2048) :
    shapeCast S2048 x h (ix1 k)
      = x (ix2 ⟨k.val / 128, by have := k.isLt; omega⟩ ⟨k.val % 128, Nat.mod_lt _ (by norm_num)⟩) :=
  shapeCast_apply x h _ _ (by
    rw [Shape.rowMajor_val_two, Shape.rowMajor_val_one]
    show k.val / 128 * 128 + k.val % 128 = k.val
    omega)

/-- 2048 entries as one row read, at (u, k), entry k. -/
theorem row_apply (x : S2048.Idx → α) (h : S2048.ShapeCasts S1x2048) (u : Fin 1) (k : Fin 2048) :
    shapeCast S1x2048 x h (ix2 u k) = x (ix1 k) :=
  shapeCast_a_1a_apply x h u k

/-- 2048 entries as one column read, at (k, u), entry k. -/
theorem col_apply (x : S2048.Idx → α) (h : S2048.ShapeCasts S2048x1) (k : Fin 2048) (u : Fin 1) :
    shapeCast S2048x1 x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

/-- One column repeated along the rows: a [m, 1] array broadcast to [m, n] reads, at (p, c), the column at p. -/
theorem bcast_col_apply {m n : ℕ} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

end Layout

/-! ## The two factors of the product, at an index -/

/-- The left factor at (a, k): the mark "id k shifted right by ten is a", as an extended real. -/
theorem lhs_apply (ids : IVec S2048 32) (a : Fin 1024) (k : Fin 2048) :
    (truncf .bf16 (sitofp (F := Ideal) .f32 (extui 32 (cmpi .eq
        (broadcastTo S1024x2048 (iota .tc S1024x1 32 [0] iota_S1024x1_d0_w32) broadcasts_S1024x1_S1024x2048)
        (broadcastTo S1024x2048 (shapeCast S1x2048 (shrui ids (broadcast S2048 10#32)) shapeCasts_S2048_S1x2048)
          broadcasts_S1x2048_S1024x2048)) natLt_1_32)) bitsLt_bf16_f32 : FVec Ideal S1024x2048 .bf16) (ix2 a k)
      = ((((IntOp.cmpi .eq (BitVec.ofNat 32 a.val) (IntOp.shrui .vector (ids (ix1 k)) 10#32)).setWidth 32).toInt : ℝ) : EReal) := by
  have e1 : broadcastTo S1024x2048 (iota .tc S1024x1 32 [0] iota_S1024x1_d0_w32) broadcasts_S1024x1_S1024x2048 (ix2 a k)
      = BitVec.ofNat 32 a.val :=
    (bcast_col_apply _ _ a k).trans (iota_single_apply .tc S1024x1 32 0 iota_S1024x1_d0_w32 (ix2 a (0 : Fin 1)))
  have e2 : broadcastTo S1024x2048 (shapeCast S1x2048 (shrui ids (broadcast S2048 10#32)) shapeCasts_S2048_S1x2048)
        broadcasts_S1x2048_S1024x2048 (ix2 a k)
      = IntOp.shrui .vector (ids (ix1 k)) 10#32 :=
    (broadcastTo_1b_ab_apply _ _ a k).trans (row_apply _ _ (0 : Fin 1) k)
  show ((((IntOp.cmpi .eq _ _).setWidth 32).toInt : ℝ) : EReal) = _
  rw [e1, e2]

/-- The right factor at (k, b): the mark "id k masked by 1023 is b", times weight k. -/
theorem rhs_apply (ids : IVec S2048 32) (w : FVec Ideal S2048 .f32) (k : Fin 2048) (b : Fin 1024) :
    mulf
        (truncf .bf16 (sitofp (F := Ideal) .f32 (extui 32 (cmpi .eq
          (broadcastTo S2048x1024 (shapeCast S2048x1 (andi ids (broadcast S2048 1023#32)) shapeCasts_S2048_S2048x1)
            broadcasts_S2048x1_S2048x1024)
          (broadcastTo S2048x1024 (iota .tc S1x1024 32 [1] iota_S1x1024_d1_w32) broadcasts_S1x1024_S2048x1024))
          natLt_1_32)) bitsLt_bf16_f32 : FVec Ideal S2048x1024 .bf16)
        (broadcastTo S2048x1024 (shapeCast S2048x1 (truncf .bf16 w bitsLt_bf16_f32 : FVec Ideal S2048 .bf16)
          shapeCasts_S2048_S2048x1) broadcasts_S2048x1_S2048x1024) (ix2 k b)
      = ((((IntOp.cmpi .eq (IntOp.andi (ids (ix1 k)) 1023#32) (BitVec.ofNat 32 b.val)).setWidth 32).toInt : ℝ) : EReal)
          * w (ix1 k) := by
  have e1 : broadcastTo S2048x1024 (shapeCast S2048x1 (andi ids (broadcast S2048 1023#32)) shapeCasts_S2048_S2048x1)
        broadcasts_S2048x1_S2048x1024 (ix2 k b)
      = IntOp.andi (ids (ix1 k)) 1023#32 :=
    (bcast_col_apply _ _ k b).trans (col_apply _ _ k (0 : Fin 1))
  have e2 : broadcastTo S2048x1024 (iota .tc S1x1024 32 [1] iota_S1x1024_d1_w32) broadcasts_S1x1024_S2048x1024 (ix2 k b)
      = BitVec.ofNat 32 b.val :=
    (broadcastTo_1b_ab_apply _ _ k b).trans (iota_single_apply .tc S1x1024 32 1 iota_S1x1024_d1_w32 (ix2 (0 : Fin 1) b))
  have e3 : broadcastTo S2048x1024 (shapeCast S2048x1 (truncf .bf16 w bitsLt_bf16_f32 : FVec Ideal S2048 .bf16)
        shapeCasts_S2048_S2048x1) broadcasts_S2048x1_S2048x1024 (ix2 k b)
      = w (ix1 k) :=
    (bcast_col_apply _ _ k b).trans (col_apply _ _ k (0 : Fin 1))
  show ((((IntOp.cmpi .eq _ _).setWidth 32).toInt : ℝ) : EReal) * _ = _
  rw [e1, e2, e3]

/-- The step's product into the zero accumulator, at (a, b): the sum over the inner coordinate. -/
theorem dot_apply {φ₁ φ₂ : FTy} (l : FVec Ideal S1024x2048 φ₁) (r : FVec Ideal S2048x1024 φ₂) (a b : Fin 1024) :
    matmul dot_S1024x2048_S2048x1024_S1024x1024_1_0_0_1_n_n none l r
        (constant (F := Ideal) S1024x1024 .f32 0x00000000#32) (ix2 a b)
      = ∑ k : Fin 2048, l (ix2 a k) * r (ix2 k b) := by
  have hd : dot_S1024x2048_S2048x1024_S1024x1024_1_0_0_1_n_n = DotDims.plain 1024 2048 1024 := rfl
  rw [hd]
  exact Cert.LibPlainDot.matmul_zero_apply none l r (ix2 a b)

/-! ## The three stored values -/

/-- The accumulate step at (a, b): the old accumulator plus the weights of the block's positions whose id is
    1024·a + b. -/
theorem pay3_apply (x0 : Vec Ideal S16x128 .i32) (x1 : Vec Ideal S16x128 .f32) (xs : Vec Ideal S1024x1024 .f32)
    (a b : Fin 1024) :
    k0_pay3 (F := Ideal) x0 x1 xs (ix2 a b)
      = xs (ix2 a b) + ∑ k : Fin 2048,
          (if (x0 (ix2 ⟨k.val / 128, by have := k.isLt; omega⟩ ⟨k.val % 128, Nat.mod_lt _ (by norm_num)⟩)).toNat
                = 1024 * a.val + b.val
            then x1 (ix2 ⟨k.val / 128, by have := k.isLt; omega⟩ ⟨k.val % 128, Nat.mod_lt _ (by norm_num)⟩) else 0) := by
  unfold k0_pay3
  refine (congrFun (shapeCast_self _ _) (ix2 a b)).trans ?_
  refine congrArg (xs (ix2 a b) + ·) ?_
  refine (dot_apply _ _ a b).trans ?_
  refine Finset.sum_congr rfl fun k _ => ?_
  refine (congrArg₂ (· * ·) (lhs_apply _ a k) (rhs_apply _ _ k b)).trans ?_
  rw [shapeCast_self, shapeCast_self, flat_apply, flat_apply]
  exact Cert.Hist.term_eq _ _ a.val b.val a.isLt b.isLt

/-- The first step of a row stores the zero matrix. -/
theorem pay2_apply (j : S1024x1024.Idx) : k0_pay2 (F := Ideal) j = 0 := by
  unfold k0_pay2
  refine (congrFun (shapeCast_self _ _) j).trans ?_
  exact Ideal.ofBits_zero_f32

/-- The flush stores the accumulator under a leading unit axis: at j it is the accumulator at (j 1, j 2). -/
theorem pay1_apply (v : Vec Ideal S1024x1024 .f32) (j : S1x1024x1024.Idx) :
    k0_pay1 (F := Ideal) v j = v (ix2 (j 1) (j 2)) := by
  unfold k0_pay1
  obtain ⟨u, p, q, rfl⟩ : ∃ (u : Fin 1) (p q : Fin 1024), j = ix3 u p q := ⟨j 0, j 1, j 2, eq_ix3 j⟩
  exact shapeCast_ab_1ab_apply v _ u p q

end Cert.Hist.Payload

end
-- ==== Proof.KernelTail.lean ====
/-
  The host side of the kernel program, at the ideal instance.

  Before the pallas_call the two [65536,200] arguments are reshaped row-major to [102400,128]; window w of the
  call reads that array in blocks of 16 rows, and the block at the linear grid point t is rows 16·t … 16·t+15.
  So entry (k / 128, k % 128) of the block at t is flat position 2048·t + k of the argument (`iblk0_apply`,
  `iblk1_apply`).

  After the call the [2,1024,1024] result array is cut into its two [1024,1024] halves, the halves are added entry
  by entry, the sum is laid out flat and its first 1000001 entries are kept: bin i is entry (i / 1024, i % 1024)
  of the first half plus the same entry of the second (`tail_v9`). The other result is the iota along the one
  axis (`tail_v10`).
-/
import proofs.«419213_j26508538151782_3_alg».proof.Proof.Spec
import proofs.«419213_j26508538151782_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.Hist.Tail

open Idealize.ShloMosaic Idealize.ShloMosaic.TcCoe Idealize.ShloMosaic.ValueIdx
open Cert.KernelIdeal Cert.KernelIdeal.Gen

variable (m : (ℓ : Loc nD τ sig) → Buf (Elt Ideal) ℓ)

/-- The grid has 6400 points. -/
theorem N_eq : cfg0.N = 6400 := by decide

/-- The two input windows' index maps over the grid: block row t, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The id array the region finds is the row-major reshape of the first argument. -/
theorem V_v0 (c : Dev nD) :
    (V m c main_v0 : S102400x128.Idx → BitVec 32)
      = shapeCast S102400x128 (m ((c.tc : Thread nD τ).loc main_arg0)) shapeCasts_S65536x200_S102400x128 := by
  show StableHlo.after hostOps0 (fun b => m (c, b)) (Proc.devRef .tc main_v0) = _
  after_results
  rfl
/-- The weight array the region finds is the row-major reshape of the second argument. -/
theorem V_v1 (c : Dev nD) :
    (V m c main_v1 : S102400x128.Idx → EReal)
      = shapeCast S102400x128 (m ((c.tc : Thread nD τ).loc main_arg1)) shapeCasts_S65536x200_S102400x128 := by
  show StableHlo.after hostOps0 (fun b => m (c, b)) (Proc.devRef .tc main_v1) = _
  after_results
  rfl

/-- Row p, lane q of the [102400,128] reshape is flat position 128·p + q of the [65536,200] array. -/
theorem reshape_read {α : Type} (X : S65536x200.Idx → α) (j : S102400x128.Idx) (n : Fin Cert.Hist.NPos)
    (h : n.val = 128 * (j 0).val + (j 1).val) :
    shapeCast S102400x128 X shapeCasts_S65536x200_S102400x128 j = X (Cert.Hist.unflat n) := by
  refine shapeCast_apply X _ j (Cert.Hist.unflat n) ?_
  rw [Shape.rowMajor_val_two, Shape.rowMajor_val_two]
  show n.val / 200 * 200 + n.val % 200 = (j 0).val * 128 + (j 1).val
  omega

/-- Entry (k / 128, k % 128) of the id block at point t is the id at flat position 2048·t + k. -/
theorem iblk0_apply (c : Dev nD) (t : Fin cfg0.N) (k : Fin 2048) :
    (iblk m c 0 t : Vec Ideal S16x128 .i32) (ix2 ⟨k.val / 128, by have := k.isLt; omega⟩ ⟨k.val % 128, Nat.mod_lt _ (by norm_num)⟩)
      = m ((c.tc : Thread nD τ).loc main_arg0)
          (Cert.Hist.unflat ⟨2048 * t.val + k.val, by have := k.isLt; have := t.isLt.trans_eq N_eq; show 2048 * t.val + k.val < 13107200; omega⟩) := by
  obtain ⟨h0, h1⟩ := idx0 t
  show (V m c main_v0 : S102400x128.Idx → BitVec 32) (((cfg0.win 0).blk t).view.emb (ix2 _ _)) = _
  refine (congrFun (V_v0 m c) _).trans ?_
  refine reshape_read _ _ _ ?_
  show 2048 * t.val + k.val
      = 128 * (win0_0.index t (0 : Fin 2) * 16 + 1 * (k.val / 128)) + (win0_0.index t (1 : Fin 2) * 128 + 1 * (k.val % 128))
  rw [h0, h1]
  omega

/-- Entry (k / 128, k % 128) of the weight block at point t is the weight at flat position 2048·t + k. -/
theorem iblk1_apply (c : Dev nD) (t : Fin cfg0.N) (k : Fin 2048) :
    (iblk m c 1 t : Vec Ideal S16x128 .f32) (ix2 ⟨k.val / 128, by have := k.isLt; omega⟩ ⟨k.val % 128, Nat.mod_lt _ (by norm_num)⟩)
      = m ((c.tc : Thread nD τ).loc main_arg1)
          (Cert.Hist.unflat ⟨2048 * t.val + k.val, by have := k.isLt; have := t.isLt.trans_eq N_eq; show 2048 * t.val + k.val < 13107200; omega⟩) := by
  obtain ⟨h0, h1⟩ := idx1 t
  show (V m c main_v1 : S102400x128.Idx → EReal) (((cfg0.win 1).blk t).view.emb (ix2 _ _)) = _
  refine (congrFun (V_v1 m c) _).trans ?_
  refine reshape_read _ _ _ ?_
  show 2048 * t.val + k.val
      = 128 * (win0_1.index t (0 : Fin 2) * 16 + 1 * (k.val / 128)) + (win0_1.index t (1 : Fin 2) * 128 + 1 * (k.val % 128))
  rw [h0, h1]
  omega

/-! ## After the region: the two halves of the result array added and cut to the bins -/

/-- The first half of the [2,1024,1024] array, as a [1024,1024] array, read at (p, q). -/
theorem half0_read (G : S2x1024x1024.Idx → EReal) (p q : Fin 1024) :
    shapeCast S1024x1024 (extractStridedSlice S1x1024x1024 ![0, 0, 0] G slices_S2x1024x1024_S1x1024x1024_0_0_0)
        shapeCasts_S1x1024x1024_S1024x1024 (ix2 p q) = G (ix3 (0 : Fin 2) p q) := by
  refine (shapeCast_apply _ shapeCasts_S1x1024x1024_S1024x1024 (ix2 p q) (ix3 (0 : Fin 1) p q) ?_).trans ?_
  · rw [Shape.rowMajor_val_three, Shape.rowMajor_val_two]
    show (0 * 1024 + p.val) * 1024 + q.val = p.val * 1024 + q.val
    omega
  · refine extractStridedSlice_apply ![0, 0, 0] G _ (ix3 (0 : Fin 1) p q) (ix3 (0 : Fin 2) p q) fun a => ?_
    match a with
    | ⟨0, _⟩ => rfl
    | ⟨1, _⟩ =>
      show p.val = 0 + p.val
      omega
    | ⟨2, _⟩ =>
      show q.val = 0 + q.val
      omega
/-- The second half, likewise. -/
theorem half1_read (G : S2x1024x1024.Idx → EReal) (p q : Fin 1024) :
    shapeCast S1024x1024 (extractStridedSlice S1x1024x1024 ![1, 0, 0] G slices_S2x1024x1024_S1x1024x1024_1_0_0)
        shapeCasts_S1x1024x1024_S1024x1024 (ix2 p q) = G (ix3 (1 : Fin 2) p q) := by
  refine (shapeCast_apply _ shapeCasts_S1x1024x1024_S1024x1024 (ix2 p q) (ix3 (0 : Fin 1) p q) ?_).trans ?_
  · rw [Shape.rowMajor_val_three, Shape.rowMajor_val_two]
    show (0 * 1024 + p.val) * 1024 + q.val = p.val * 1024 + q.val
    omega
  · refine extractStridedSlice_apply ![1, 0, 0] G _ (ix3 (0 : Fin 1) p q) (ix3 (1 : Fin 2) p q) fun a => ?_
    match a with
    | ⟨0, _⟩ => rfl
    | ⟨1, _⟩ =>
      show p.val = 0 + p.val
      omega
    | ⟨2, _⟩ =>
      show q.val = 0 + q.val
      omega

/-- What the lines after the region make of the result array G: the two halves added entry by entry, laid out
    flat, and the first 1000001 entries kept. -/
def binsOf (G : S2x1024x1024.Idx → EReal) : S1000001.Idx → EReal :=
  extractStridedSlice S1000001 ![0]
    (shapeCast S1048576
      (addf (F := Ideal) (s := S1024x1024) (φ := .f32)
        (shapeCast S1024x1024 (extractStridedSlice S1x1024x1024 ![0, 0, 0] G slices_S2x1024x1024_S1x1024x1024_0_0_0)
          shapeCasts_S1x1024x1024_S1024x1024)
        (shapeCast S1024x1024 (extractStridedSlice S1x1024x1024 ![1, 0, 0] G slices_S2x1024x1024_S1x1024x1024_1_0_0)
          shapeCasts_S1x1024x1024_S1024x1024))
      shapeCasts_S1024x1024_S1048576)
    slices_S1048576_S1000001_0

/-- A bin number below 1000001 has its high digit in base 1024 below 1024. -/
theorem hi_lt (i : S1000001.Idx) : (i 0).val / 1024 < 1024 := by
  have hi : (i 0).val < 1000001 := (i 0).isLt
  omega

/-- Bin i is entry (i / 1024, i % 1024) of the first half plus the same entry of the second. -/
theorem binsOf_apply (G : S2x1024x1024.Idx → EReal) (i : S1000001.Idx) :
    binsOf G i
      = G (ix3 (0 : Fin 2) ⟨(i 0).val / 1024, hi_lt i⟩ ⟨(i 0).val % 1024, Nat.mod_lt _ (by norm_num)⟩)
        + G (ix3 (1 : Fin 2) ⟨(i 0).val / 1024, hi_lt i⟩ ⟨(i 0).val % 1024, Nat.mod_lt _ (by norm_num)⟩) := by
  have hi : (i 0).val < 1000001 := (i 0).isLt
  unfold binsOf
  refine (extractStridedSlice_apply ![0] _ slices_S1048576_S1000001_0 i
    (ix1 (⟨(i 0).val, by omega⟩ : Fin 1048576)) (fun a => ?_)).trans ?_
  · match a with
    | ⟨0, _⟩ =>
      show (i 0).val = 0 + (i 0).val
      omega
  refine (shapeCast_apply _ shapeCasts_S1024x1024_S1048576 (ix1 (⟨(i 0).val, by omega⟩ : Fin 1048576))
    (ix2 (⟨(i 0).val / 1024, hi_lt i⟩ : Fin 1024) (⟨(i 0).val % 1024, Nat.mod_lt _ (by norm_num)⟩ : Fin 1024)) ?_).trans ?_
  · rw [Shape.rowMajor_val_two, Shape.rowMajor_val_one]
    show (i 0).val / 1024 * 1024 + (i 0).val % 1024 = (i 0).val
    omega
  rw [addf_apply, half0_read, half1_read]

/-- The f32 result: with G the result array as the region leaves it, bin i is G's entry (0, i / 1024, i % 1024)
    plus its entry (1, i / 1024, i % 1024). -/
theorem tail_v9 (c : Dev nD) (G : S2x1024x1024.Idx → EReal) (hG : (dats m 0 c).arrAt 2 cfg0.N = G) (i : S1000001.Idx) :
    (Pipeline.afterTail₀ cfgs (dats m) 0 (V0 m) [hostOps1] c main_v9 : S1000001.Idx → EReal) i
      = G (ix3 (0 : Fin 2) ⟨(i 0).val / 1024, hi_lt i⟩ ⟨(i 0).val % 1024, Nat.mod_lt _ (by norm_num)⟩)
        + G (ix3 (1 : Fin 2) ⟨(i 0).val / 1024, hi_lt i⟩ ⟨(i 0).val % 1024, Nat.mod_lt _ (by norm_num)⟩) := by
  have e : (Pipeline.afterTail₀ cfgs (dats m) 0 (V0 m) [hostOps1] c main_v9 : S1000001.Idx → EReal) = binsOf G := by
    have hw : (Pipeline.withArrays (cfgs 0).spec c (V0 m c) (fun w => (dats m 0 c).arrAt w (cfgs 0).N)
        (Proc.devRef .tc main_v2) : S2x1024x1024.Idx → EReal) = G :=
      (Pipeline.withArrays_arr spec0 launch0.win.arr_inj c _ _ 2).trans hG
    unfold Pipeline.afterTail₀
    show StableHlo.after hostOps1 _ (Proc.devRef .tc main_v9) = _
    after_results
    rw [hw]
    rfl
  rw [e]
  exact binsOf_apply G i

/-- The i32 result is the iota along the one axis: nothing before it in the program feeds it. -/
theorem tail_v10 (c : Dev nD) :
    (Pipeline.afterTail₀ cfgs (dats m) 0 (V0 m) [hostOps1] c main_v10 : S1000001.Idx → BitVec 32) = iotaInDim S1000001 32 0 := by
  unfold Pipeline.afterTail₀
  show StableHlo.after hostOps1 _ (Proc.devRef .tc main_v10) = _
  after_results

end Cert.Hist.Tail
end
-- ==== Proof.Acc.lean ====
/-
  The accumulator along a core's run of grid points.

  Grid point t (0 ≤ t < 6400) works on block t of the flattened input: positions 2048·t … 2048·t + 2047.
  Points 3200·q … 3200·q + 3199 are core q's run. The accumulator is reset at the run's first point and
  each point adds, to the entry (a, b), the weights of its block's positions whose id is 1024·a + b. So after
  the run's last point the entry holds the sum over the core's 3200 · 2048 positions, and that point copies
  the accumulator to the output block.
-/
import proofs.«419213_j26508538151782_3_alg».proof.Proof.Pieces
import proofs.«419213_j26508538151782_3_alg».proof.Proof.Payload
import proofs.«419213_j26508538151782_3_alg».proof.Proof.KernelTail
import proofs.«419213_j26508538151782_3_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)

namespace Cert.Hist.Acc

open Cert.KernelIdeal Cert.KernelIdeal.Gen Idealize.ShloMosaic.ValueIdx Cert.Hist

variable (m : (ℓ : Loc nD τ sig) → Buf (Elt Ideal) ℓ)

/-- The ids and the weights, as the program is launched with them. -/
abbrev ids (c : Dev nD) : S65536x200.Idx → BitVec 32 := m ((c.tc : Thread nD τ).loc main_arg0)
abbrev wts (c : Dev nD) : S65536x200.Idx → EReal := m ((c.tc : Thread nD τ).loc main_arg1)

/-- The bin an accumulator entry stands for: row a, column b is bin 1024·a + b. -/
abbrev bin (j : S1024x1024.Idx) : Nat := 1024 * (j 0).val + (j 1).val

/-- What block n (positions 2048·n … 2048·n + 2047) adds to an accumulator entry. -/
def blockSum (c : Dev nD) (n : Nat) (j : S1024x1024.Idx) : EReal :=
  ∑ k ∈ Finset.range 2048, item (ids m c) (wts m c) (bin j) (2048 * n + k)

/-- One accumulate step at grid point t adds block t's contribution: the block's rows are the
    positions 2048·t + k, and the product of the two indicators picks the positions whose id is the bin. -/
theorem pay3_block (c : Dev nD) (t : Fin cfg0.N) (xs : Vec Ideal S1024x1024 .f32) (j : S1024x1024.Idx) :
    k0_pay3 (F := Ideal) (iblk m c 0 t) (iblk m c 1 t) xs j = xs j + blockSum m c t.val j := by
  obtain ⟨a, b, rfl⟩ : ∃ (a b : Fin 1024), j = ix2 a b := ⟨j 0, j 1, eq_ix2 j⟩
  refine (Payload.pay3_apply (iblk m c 0 t) (iblk m c 1 t) xs a b).trans ?_
  congr 1
  unfold blockSum
  rw [Finset.sum_range]
  refine Finset.sum_congr rfl fun k _ => ?_
  have hN : cfg0.N = 6400 := N_0
  have ht : t.val < 6400 := hN ▸ t.isLt
  have hk : 2048 * t.val + k.val < NPos := by have := k.isLt; show _ < 13107200; omega
  rw [Tail.iblk0_apply m c t k, Tail.iblk1_apply m c t k]
  unfold item
  rw [dif_pos hk]

/-- The accumulator after point n. -/
def accAfter (c : Dev nD) (n : Nat) (h : n < cfg0.N) : S1024x1024.Idx → EReal := (outsAt0 m c n h).2

/-- At the first point of a core's run the accumulator is the block's contribution alone. -/
def accReset (c : Dev nD) (n : Nat) (_ : n < cfg0.N) : S1024x1024.Idx → EReal := fun j => 0 + blockSum m c n j

/-- At every other point the block's contribution is added to what the point before left. -/
def accStep (c : Dev nD) (n : Nat) (_ : n < cfg0.N) (acc : S1024x1024.Idx → EReal) : S1024x1024.Idx → EReal :=
  fun j => acc j + blockSum m c n j

theorem accAfter_reset (c : Dev nD) (n : Nat) (h : n < cfg0.N) (h0 : n % 3200 = 0) :
    accAfter m c n h = accReset m c n h := by
  have h1 : ¬ n % 3200 = 3199 := by omega
  funext j
  show (outsAt0 m c n h).2 j = 0 + blockSum m c n j
  rw [outsAt0_A m c ⟨n, h⟩ h0 h1]
  dsimp only
  refine (congrFun (Pieces.sout_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩)) j).trans ?_
  refine (pay3_block m c ⟨n, h⟩ (k0_pay2 (F := Ideal)) j).trans ?_
  rw [Payload.pay2_apply]

theorem accAfter_step (c : Dev nD) (n : Nat) (h : n + 1 < cfg0.N) (h0 : ¬ (n + 1) % 3200 = 0) :
    accAfter m c (n + 1) h = accStep m c (n + 1) h (accAfter m c n (Nat.lt_of_succ_lt h)) := by
  funext j
  show (outsAt0 m c (n + 1) h).2 j = (outsAt0 m c n (Nat.lt_of_succ_lt h)).2 j + blockSum m c (n + 1) j
  by_cases h1 : (n + 1) % 3200 = 3199
  · rw [outsAt0_C m c ⟨n + 1, h⟩ h0 h1]
    dsimp only
    refine (congrFun (Pieces.sout_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh))
      ((hcond0_1 ⟨n + 1, h⟩).mpr h1) (iblk m c 0 ⟨n + 1, h⟩) (iblk m c 1 ⟨n + 1, h⟩)
      (outsAt0 m c n (Nat.lt_of_succ_lt h)).2) j).trans ?_
    exact pay3_block m c ⟨n + 1, h⟩ (outsAt0 m c n (Nat.lt_of_succ_lt h)).2 j
  · rw [outsAt0_B m c ⟨n + 1, h⟩ h0 h1]
    dsimp only
    refine (congrFun (Pieces.sout_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh))
      (fun hh => h1 ((hcond0_1 ⟨n + 1, h⟩).mp hh)) (iblk m c 0 ⟨n + 1, h⟩) (iblk m c 1 ⟨n + 1, h⟩)
      (outsAt0 m c n (Nat.lt_of_succ_lt h)).2) j).trans ?_
    exact pay3_block m c ⟨n + 1, h⟩ (outsAt0 m c n (Nat.lt_of_succ_lt h)).2 j

/-- After the last point of core q's run the accumulator entry for a bin is the sum over the core's half
    of the positions: 3200 blocks of 2048 positions, from position 6553600·q on. -/
theorem acc_last (c : Dev nD) (q : Nat) (h : 3200 * q + 3199 < cfg0.N) (j : S1024x1024.Idx) :
    (outsAt0 m c (3200 * q + 3199) h).2 j
      = 0 + ∑ p ∈ Finset.range 6553600, item (ids m c) (wts m c) (bin j) (6553600 * q + p) := by
  have e := Pipeline.eq_accAt (accAfter m c) 3200 (accReset m c) (accStep m c) (accAfter_reset m c) (accAfter_step m c)
    q 3199 (by norm_num) h
  show accAfter m c (3200 * q + 3199) h j = _
  rw [e, Pipeline.accAt_add_apply (accReset m c) (accStep m c) (fun _ => 0) (blockSum m c) (3200 * q) 3199
    (fun _ _ => rfl) (fun _ _ _ _ _ _ => rfl) 3199 le_rfl h j]
  refine congrArg (fun z => (0 : EReal) + z) ?_
  have e3 : (3199 + 1 : Nat) = 3200 := rfl
  have e4 : (2048 * 3200 : Nat) = 6553600 := by norm_num
  rw [e3]
  unfold blockSum
  rw [sum_blocks (fun n => item (ids m c) (wts m c) (bin j) n) 2048 (3200 * q) 3200, e4]
  refine Finset.sum_congr rfl fun p _ => ?_
  have e5 : 2048 * (3200 * q) + p = 6553600 * q + p := by omega
  rw [e5]

/-- At that point the output block is the accumulator with a leading unit axis. -/
theorem out_last (c : Dev nD) (q : Nat) (h : 3200 * q + 3199 < cfg0.N) (y : S1x1024x1024.Idx) :
    (outsAt0 m c (3200 * q + 3199) h).1 y
      = 0 + ∑ p ∈ Finset.range 6553600, item (ids m c) (wts m c) (1024 * (y 1).val + (y 2).val) (6553600 * q + p) := by
  have h0 : ¬ (3200 * q + 3199) % 3200 = 0 := by omega
  have h1 : (3200 * q + 3199) % 3200 = 3199 := by omega
  have e2 := acc_last m c q h (ix2 (y 1) (y 2))
  rw [outsAt0_C m c ⟨3200 * q + 3199, h⟩ h0 h1] at e2 ⊢
  dsimp only at e2 ⊢
  refine (congrFun (Pieces.out_C (F := Ideal) c (grid0.coords ⟨3200 * q + 3199, h⟩) (ms0_0 ⟨3200 * q + 3199, h⟩) (hs0_0 ⟨3200 * q + 3199, h⟩)
    (ms0_1 ⟨3200 * q + 3199, h⟩) (hs0_1 ⟨3200 * q + 3199, h⟩) (ms0_2 ⟨3200 * q + 3199, h⟩) (hs0_2 ⟨3200 * q + 3199, h⟩) scM0_0 (Memref.isWhole_whole _)
    (fun hh => h0 ((hcond0_0 ⟨3200 * q + 3199, h⟩).mp hh)) ((hcond0_1 ⟨3200 * q + 3199, h⟩).mpr h1)
    (iblk m c 0 ⟨3200 * q + 3199, h⟩) (iblk m c 1 ⟨3200 * q + 3199, h⟩) _) y).trans ?_
  rw [Payload.pay1_apply]
  refine Eq.trans ?_ e2
  exact (congrFun (Pieces.sout_C (F := Ideal) c (grid0.coords ⟨3200 * q + 3199, h⟩) (ms0_0 ⟨3200 * q + 3199, h⟩) (hs0_0 ⟨3200 * q + 3199, h⟩)
    (ms0_1 ⟨3200 * q + 3199, h⟩) (hs0_1 ⟨3200 * q + 3199, h⟩) (ms0_2 ⟨3200 * q + 3199, h⟩) (hs0_2 ⟨3200 * q + 3199, h⟩) scM0_0 (Memref.isWhole_whole _)
    (fun hh => h0 ((hcond0_0 ⟨3200 * q + 3199, h⟩).mp hh)) ((hcond0_1 ⟨3200 * q + 3199, h⟩).mpr h1)
    (iblk m c 0 ⟨3200 * q + 3199, h⟩) (iblk m c 1 ⟨3200 * q + 3199, h⟩) _) (ix2 (y 1) (y 2))).symm

end Cert.Hist.Acc

end
-- ==== Proof.OutIndex.lean ====
/-
  Which block of the result array a grid point's output window is: point t's block is slab t / 3200, whole
  (block index 0 on the two long axes). Decided over the 6400 points of the grid.
-/
import proofs.«419213_j26508538151782_3_alg».proof.Proof.Gen.KernelIdeal
import Idealize.ShloMosaic.Lib.Decide

namespace Cert.Hist.OutIndex

open Idealize.ShloMosaic Cert.KernelIdeal Cert.KernelIdeal.Gen

theorem out_index : ∀ t : Fin cfg0.N, win0_2.index t 0 = t.val / 3200 ∧ win0_2.index t 1 = 0 ∧ win0_2.index t 2 = 0 :=
  (by decide +kernel : ∀ t : Fin grid0.N, win0_2.index t 0 = t.val / 3200 ∧ win0_2.index t 1 = 0 ∧ win0_2.index t 2 = 0)

end Cert.Hist.OutIndex
-- ==== Proof.Flush.lean ====
/-
  The pallas_call's result array, and the kernel program's run read as the histogram.

  The output window's block at grid point t is slab t / 3200 of the [2,1024,1024] result array, whole, and it
  is written back only at the last point of each core's run, 3200·q + 3199, when it holds core q's
  accumulator. So slab q is core q's sums, one per bin, over its half of the input positions, and the two
  slabs cover the array. The host then adds the two slabs entry by entry: the first half of the positions
  plus the second half is all of them.
-/
import proofs.«419213_j26508538151782_3_alg».proof.Proof.Acc
import proofs.«419213_j26508538151782_3_alg».proof.Proof.OutIndex
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)

namespace Cert.Hist.Flush

open Cert.KernelIdeal Cert.KernelIdeal.Gen Idealize.ShloMosaic.ValueIdx Cert.Hist Cert.Hist.Acc Cert.Hist.OutIndex

variable (m : (ℓ : Loc nD τ sig) → Buf (Elt Ideal) ℓ) (ρ : Dev nD → PrngReg)

/-- Core q's sum for bin b: over the 6553600 positions from 6553600·q on. -/
@[irreducible] def halfSum (I : S65536x200.Idx → BitVec 32) (W : S65536x200.Idx → EReal) (b q : Nat) : EReal :=
  0 + ∑ p ∈ Finset.range 6553600, item I W b (6553600 * q + p)

/-- The result array: slab q, entry (a, b), is core q's sum for bin 1024·a + b. -/
def slabs (c : Dev nD) : S2x1024x1024.Idx → EReal := fun i =>
  halfSum (ids m c) (wts m c) (1024 * (i 1).val + (i 2).val) (i 0).val

/-- An entry of the result array, by its three coordinates. -/
theorem slabs_at (c : Dev nD) (i : S2x1024x1024.Idx) (q a b : Nat) (h0 : (i 0).val = q) (h1 : (i 1).val = a) (h2 : (i 2).val = b) :
    slabs m c i = halfSum (ids m c) (wts m c) (1024 * a + b) q := by
  subst h0 h1 h2
  rfl

/-- The output block at the last point of core q's run, named by the point. -/
theorem out_at (c : Dev nD) (t : Fin cfg0.N) (q : Nat) (hq : t.val = 3200 * q + 3199) (y : S1x1024x1024.Idx) :
    (outsAt0 m c t.val t.isLt).1 y = halfSum (ids m c) (wts m c) (1024 * (y 1).val + (y 2).val) q := by
  obtain ⟨n, hn⟩ := t
  dsimp only at hq
  subst hq
  unfold halfSum
  exact out_last m c q hn y

/-- What a write-back writes is its block of the slabs. -/
theorem flushed_eq (c : Dev nD) (t : Fin cfg0.N) (hf : (cfg0.win 2).flush t = true) :
    (dats m 0 c).flushed 2 t = ((cfg0.win 2).blk t).view.read (Elt Ideal) (slabs m c) := by
  have hN : cfg0.N = 6400 := N_0
  have h1 : t.val % 3200 = 3199 := (flush0_2 t).mp hf
  have hq : t.val = 3200 * (t.val / 3200) + 3199 := by omega
  obtain ⟨i0, i1, i2⟩ := out_index t
  show (cfg0.win 2).cut (grid0.coords t) ((dats m 0 c).after 2 t) = _
  rw [after0_2]
  funext y
  have hy0 : (y 0).val < 1 := (y 0).isLt
  have e0 : ((((cfg0.win 2).blk t).view.emb y) 0).val = t.val / 3200 := by
    show win0_2.index t (0 : Fin 3) * 1 + 1 * (y 0).val = _
    rw [i0]; omega
  have e1 : ((((cfg0.win 2).blk t).view.emb y) 1).val = (y 1).val := by
    show win0_2.index t (1 : Fin 3) * 1024 + 1 * (y 1).val = _
    rw [i1]; omega
  have e2 : ((((cfg0.win 2).blk t).view.emb y) 2).val = (y 2).val := by
    show win0_2.index t (2 : Fin 3) * 1024 + 1 * (y 2).val = _
    rw [i2]; omega
  rw [View.read_apply]
  rw [slabs_at m c _ _ _ _ e0 e1 e2]
  refine (out_at m c t (t.val / 3200) hq ((cfg0.win 2).xinj (grid0.coords t) y)).trans ?_
  exact (cast_eq _ _).symm

/-- An index of the result array is in point t's block iff each coordinate is in the block's range on its axis. -/
theorem mem_blk (t : Fin cfg0.N) (i : S2x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- Every entry of the result array lies in the block written back at the last point of its core's run. -/
theorem covered (i : S2x1024x1024.Idx) :
    ∃ t : Fin cfg0.N, (cfg0.win 2).flush t = true ∧ i ∈ ((cfg0.win 2).blk t).view.set := by
  have h0 : (i 0).val < 2 := (i 0).isLt
  have h1 : (i 1).val < 1024 := (i 1).isLt
  have h2 : (i 2).val < 1024 := (i 2).isLt
  have hN : cfg0.N = 6400 := N_0
  have ht : 3200 * (i 0).val + 3199 < cfg0.N := by rw [hN]; omega
  obtain ⟨j0, j1, j2⟩ := out_index ⟨3200 * (i 0).val + 3199, ht⟩
  have hdiv : (3200 * (i 0).val + 3199) / 3200 = (i 0).val := by omega
  have j0' : win0_2.index ⟨3200 * (i 0).val + 3199, ht⟩ (0 : Fin 3) = (i 0).val := j0.trans hdiv
  refine ⟨⟨3200 * (i 0).val + 3199, ht⟩, (flush0_2 _).mpr (by show (3200 * (i 0).val + 3199) % 3200 = 3199; omega), ?_⟩
  rw [mem_blk]
  intro a
  match a with
  | ⟨0, _⟩ =>
    show win0_2.index ⟨3200 * (i 0).val + 3199, ht⟩ (0 : Fin 3) * 1 ≤ (i 0).val
      ∧ (i 0).val < win0_2.index ⟨3200 * (i 0).val + 3199, ht⟩ (0 : Fin 3) * 1 + 1
    rw [j0']; omega
  | ⟨1, _⟩ =>
    show win0_2.index ⟨3200 * (i 0).val + 3199, ht⟩ (1 : Fin 3) * 1024 ≤ (i 1).val
      ∧ (i 1).val < win0_2.index ⟨3200 * (i 0).val + 3199, ht⟩ (1 : Fin 3) * 1024 + 1024
    rw [j1]; omega
  | ⟨2, _⟩ =>
    show win0_2.index ⟨3200 * (i 0).val + 3199, ht⟩ (2 : Fin 3) * 1024 ≤ (i 2).val
      ∧ (i 2).val < win0_2.index ⟨3200 * (i 0).val + 3199, ht⟩ (2 : Fin 3) * 1024 + 1024
    rw [j2]; omega

/-- So the result array ends holding the slabs. -/
theorem final (c : Dev nD) : (dats m 0 c).arrAt 2 cfg0.N = slabs m c :=
  (dats m 0 c).arrAt_eq_of_cover 2 (slabs m c) (flushed_eq m c) (covered)

/-- The first half of the positions plus the second half is all of them. -/
theorem halfSum_add (I : S65536x200.Idx → BitVec 32) (W : S65536x200.Idx → EReal) (b : Nat) :
    halfSum I W b 0 + halfSum I W b 1 = hist I W b := by
  unfold halfSum hist
  rw [zero_add, zero_add, Nat.mul_zero, Nat.mul_one]
  simp only [Nat.zero_add]
  exact sum_halves (fun n => item I W b n) 6553600

/-- The two cores' sums for a bin make the bin. -/
theorem slabs_add (c : Dev nD) (i : S1000001.Idx) :
    slabs m c (ix3 (0 : Fin 2) ⟨(i 0).val / 1024, Tail.hi_lt i⟩ ⟨(i 0).val % 1024, Nat.mod_lt _ (by norm_num)⟩)
      + slabs m c (ix3 (1 : Fin 2) ⟨(i 0).val / 1024, Tail.hi_lt i⟩ ⟨(i 0).val % 1024, Nat.mod_lt _ (by norm_num)⟩)
      = hist (ids m c) (wts m c) (i 0).val := by
  have hb : 1024 * ((i 0).val / 1024) + (i 0).val % 1024 = (i 0).val := Nat.div_add_mod _ _
  show halfSum (ids m c) (wts m c) (1024 * ((i 0).val / 1024) + (i 0).val % 1024) 0
      + halfSum (ids m c) (wts m c) (1024 * ((i 0).val / 1024) + (i 0).val % 1024) 1 = _
  rw [hb]
  exact halfSum_add _ _ _
/-- The kernel program's run, read: the second result is the histogram of the launch ids and weights, the first
    the bin numbers, the arguments unchanged. -/
theorem run : θ_run defs (onTc (τ := τ) (main (F := Ideal))) ⟨m, fun _ => 0, ρ⟩ fun r => ∀ c : Dev nD,
      r.2.mem ((c.tc : Thread nD τ).loc main_v10) = iotaInDim S1000001 32 0
      ∧ r.2.mem ((c.tc : Thread nD τ).loc main_v9) = (fun i => hist (ids m c) (wts m c) (i 0).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (Tail.tail_v10 m c),
     ((h c).2 main_v9 (Pipeline.mem_restRefs_of main_v9 (by decide) (by decide))).trans
        (funext fun i => (Tail.tail_v9 m c (slabs m c) (final m c) i).trans (slabs_add m c i)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Hist.Flush

end
-- ==== Proof.RefValue.lean ====
/-
  The reference's result, read: bin i of the scatter-add is the weighted histogram's bin i.

  The reference flattens the ids and the weights to 65536·200 positions, replaces a negative id x by
  x + 1000001 (never taken when every id is between 0 and 1000000), and scatter-adds the weights into a
  zero array of 1000001 bins at the ids. At the ideal instance a scatter-add is, element by element,
  the operand plus the exact sum of the updates whose result index is that element. For this scatter's
  dimension numbers (no window axes, the operand's one axis inserted, one index component per update)
  the result index of update j is the signed reading of the index operand at row j, when that is a bin,
  and nothing otherwise.
-/
import proofs.«419213_j26508538151782_3_alg».proof.Proof.Gen.ReferenceIdeal.Read
import proofs.«419213_j26508538151782_3_alg».proof.Proof.Spec
import Idealize.ShloMosaic.PureOps.Ideal.Laws

noncomputable section

open scoped BigOperators

namespace Cert.Hist.Ref

open Idealize.ShloMosaic Idealize.ShloMosaic.ValueIdx Cert.ReferenceIdeal Cert.ReferenceIdeal.Gen Cert.ReferenceIdeal.Read

/-! ## Two facts that hold at every shape and index set

They are stated without this program's sizes, so that nothing in them has to be computed. -/

/-- At the ideal instance a scatter-add read at an index: the operand there plus the sum of the updates
    whose result index is that index. -/
theorem scatterAdd_apply {s si su : Shape} {w : Nat} (d : ScatterDims s si su) (x : s.Idx → EReal)
    (idx : IVec si w) (upd : su.Idx → EReal) (i : s.Idx) :
    Host.scatterAdd (F := Ideal) (φ := .f32) d x idx upd i
      = x i + ∑ j ∈ Finset.univ.filter (fun j => d.resultIdx? j idx = some i), upd j := rfl

/-- Re-indexing a filtered sum: if e carries the index set ι onto κ, the condition p onto q and the
    summand f onto g, the sum of f over the indices where p holds is the sum over κ of g where q holds
    and nothing elsewhere. -/
theorem sum_landing {ι κ M : Type*} [Fintype ι] [Fintype κ] [AddCommMonoid M] (e : ι ≃ κ)
    (p : ι → Prop) [DecidablePred p] (q : κ → Prop) [DecidablePred q] (f : ι → M) (g : κ → M)
    (hp : ∀ j, p j ↔ q (e j)) (hf : ∀ j, f j = g (e j)) :
    ∑ j ∈ Finset.univ.filter p, f j = ∑ n, if q n then g n else 0 := by
  rw [Finset.sum_filter, ← Equiv.sum_comp e]
  exact Fintype.sum_congr _ _ fun j => if_congr (hp j) (hf j) rfl

/-- The scatter's dimension numbers. -/
abbrev dn : ScatterDims S1000001 S13107200x1 S13107200 := scatter_S1000001_S13107200x1_S13107200_n_0_0_1

/-- Where update j reads its bin in the index operand: row j, the one column. -/
abbrev binAt (j : S13107200.Idx) : S13107200x1.Idx := ix2 (j 0) ⟨0, Nat.one_pos⟩

theorem mem0 : (0 : Fin S1000001.rank) ∈ dn.scatterDimsToOperandDims := List.mem_singleton.mpr rfl

/-- The start index of update j has one component, read at row j of the index operand. -/
theorem siIdx_eq (j : S13107200.Idx) (c : Fin dn.scatterDimsToOperandDims.length) : dn.siIdx j c = binAt j := by
  funext b
  apply Fin.ext
  match b with
  | ⟨0, _⟩ => rfl
  | ⟨1, _⟩ =>
    have h : c.val < 1 := c.isLt
    show c.val = 0
    omega

/-- On the operand's one axis the window starts at the bin word, read signed. -/
theorem start_eq {w : Nat} (j : S13107200.Idx) (idx : IVec S13107200x1 w) (a : Fin S1000001.rank) :
    dn.start j idx a = (idx (binAt j)).toInt := by
  obtain rfl : a = 0 := Subsingleton.elim _ _
  unfold ScatterDims.start
  rw [dif_pos mem0, siIdx_eq]

/-- The operand's one axis is an inserted one: the window has no extent there. -/
theorem window_eq (j : S13107200.Idx) (a : Fin S1000001.rank) : dn.window j a = 0 := by
  obtain rfl : a = 0 := Subsingleton.elim _ _
  unfold ScatterDims.window
  rw [dif_neg (by decide)]

/-- Update j lands on bin i exactly when its bin word, read signed, is i. -/
theorem lands_iff {w : Nat} (j : S13107200.Idx) (idx : IVec S13107200x1 w) (i : S1000001.Idx) :
    dn.resultIdx? j idx = some i ↔ (idx (binAt j)).toInt = ((i 0).val : Int) := by
  have hi : (i 0).val < 1000001 := (i 0).isLt
  unfold ScatterDims.resultIdx?
  by_cases h : ∀ a, 0 ≤ dn.start j idx a + dn.window j a ∧ dn.start j idx a + dn.window j a < S1000001.size a
  · rw [dif_pos h, Option.some.injEq]
    have h0 := h 0
    rw [start_eq, window_eq] at h0
    constructor
    · intro e
      have e0 := congrArg Fin.val (congrFun e 0)
      simp only [start_eq, window_eq] at e0
      omega
    · intro e
      funext a
      obtain rfl : a = 0 := Subsingleton.elim _ _
      apply Fin.ext
      simp only [start_eq, window_eq]
      omega
  · rw [dif_neg h]
    constructor
    · intro e
      cases e
    · intro e
      refine absurd (fun a => ?_) h
      rw [start_eq, window_eq, e]
      obtain rfl : a = 0 := Subsingleton.elim _ _
      show 0 ≤ ((i 0).val : Int) + ((0 : Nat) : Int) ∧ ((i 0).val : Int) + ((0 : Nat) : Int) < ((1000001 : Nat) : Int)
      omega

/-- A word that is not negative as a signed number is not below zero. -/
theorem slt_zero_of_nonneg (x : BitVec 32) (h : 0 ≤ x.toInt) : IntOp.cmpi .slt x 0#32 = 0#1 := by
  unfold IntOp.cmpi
  have hs : x.slt 0#32 = false := by
    rw [BitVec.slt_eq_decide]
    simp only [BitVec.toInt_zero, decide_eq_false_iff_not, not_lt]
    exact h
  simp only [hs]
  rfl

/-- A word that is not negative as a signed number reads the same signed and unsigned. -/
theorem toInt_of_nonneg (x : BitVec 32) (h : 0 ≤ x.toInt) : x.toInt = (x.toNat : Int) := by
  have hlt := x.isLt
  rw [BitVec.toInt_eq_toNat_cond] at h ⊢
  split at h
  · rw [if_pos (by assumption)]
  · exfalso
    omega

/-- Position j₀ of the flattened arrays is position (j₀ / 200, j₀ % 200) of the inputs. -/
theorem idx_v0_eq (j : S13107200.Idx) : idx_main_v0 j = unflat ⟨(j 0).val, (j 0).isLt⟩ := by
  funext a
  match a with
  | ⟨0, _⟩ => rfl
  | ⟨1, _⟩ => rfl

theorem idx_v1_eq (j : S13107200.Idx) : idx_main_v1 j = unflat ⟨(j 0).val, (j 0).isLt⟩ := by
  funext a
  match a with
  | ⟨0, _⟩ => rfl
  | ⟨1, _⟩ => rfl

theorem idx_v8_eq (j : S13107200.Idx) : idx_main_v8 (binAt j) = j := by
  funext a
  obtain rfl : a = 0 := Subsingleton.elim _ _
  rfl

/-- Under the range hypothesis the index operand at row j is the id at position j₀ itself:
    the wrap-around of negative ids is never taken. -/
theorem binWord_eq (x0 : (⟨2, ![65536, 200]⟩ : Shape).Idx → BitVec 32)
    (hx : ∀ i, 0 ≤ (x0 i).toInt ∧ (x0 i).toInt ≤ 1000000) (j : S13107200.Idx) :
    val_main_v8 (F := Ideal) x0 (binAt j) = x0 (unflat ⟨(j 0).val, (j 0).isLt⟩) := by
  rw [val_main_v8_apply, idx_v8_eq, val_main_v7_apply, val_main_v4_apply, val_main_v0_apply, val_main_v3_apply,
    val_main_c_apply, idx_v0_eq, slt_zero_of_nonneg _ (hx _).1, select_zero]

/-- The flattened positions as a finite type of one coordinate. -/
def posEquiv : S13107200.Idx ≃ Fin NPos where
  toFun j := ⟨(j 0).val, (j 0).isLt⟩
  invFun n := ix1 n
  left_inv j := (eq_ix1 j).symm
  right_inv _ := rfl

/-! ## The three operands of the scatter, read -/

/-- The array the scatter adds into is zero everywhere. -/
theorem zero_bin (i : S1000001.Idx) : val_main_v2 (F := Ideal) i = 0 := by
  rw [val_main_v2_apply, val_main_cst_apply]
  exact Ideal.ofBits_zero_f32

/-- Update j lands on bin i exactly when the id at position j₀, read as a natural number, is i. -/
theorem lands_pos (x0 : (⟨2, ![65536, 200]⟩ : Shape).Idx → BitVec 32)
    (hx : ∀ i, 0 ≤ (x0 i).toInt ∧ (x0 i).toInt ≤ 1000000) (i : S1000001.Idx) (j : S13107200.Idx) :
    dn.resultIdx? j (val_main_v8 (F := Ideal) x0) = some i ↔ (x0 (unflat (posEquiv j))).toNat = (i 0).val := by
  rw [lands_iff, binWord_eq x0 hx, toInt_of_nonneg _ (hx _).1]
  exact Int.ofNat_inj

/-- Update j is the weight at position j₀. -/
theorem upd_pos (x1 : (⟨2, ![65536, 200]⟩ : Shape).Idx → EReal) (j : S13107200.Idx) :
    val_main_v1 (F := Ideal) x1 j = x1 (unflat (posEquiv j)) := by
  rw [val_main_v1_apply, idx_v1_eq]
  rfl

/-- THE REFERENCE'S RESULT. Bin i of the scatter-add over the zero array is the weighted histogram's
    bin i: the zero it starts from plus the sum of the updates landing on i, which is the sum over all
    positions of the weight where the id is i and nothing elsewhere. -/
theorem ref_v9 (x0 : (⟨2, ![65536, 200]⟩ : Shape).Idx → BitVec 32) (x1 : (⟨2, ![65536, 200]⟩ : Shape).Idx → EReal)
    (hx : ∀ i, 0 ≤ (x0 i).toInt ∧ (x0 i).toInt ≤ 1000000) (i : Cert.ReferenceIdeal.S1000001.Idx) :
    Cert.ReferenceIdeal.Read.val_main_v9 (F := Ideal) x0 x1 i = Cert.Hist.hist x0 x1 (i 0).val := by
  unfold val_main_v9
  rw [scatterAdd_apply, zero_bin, zero_add, hist_eq_sum_fin]
  exact sum_landing posEquiv _ (fun n => (x0 (unflat n)).toNat = (i 0).val) _ (fun n => x1 (unflat n))
    (lands_pos x0 hx i) (upd_pos x1)

end Cert.Hist.Ref

end
-- ==== Proof.PreRange.lean ====
import proofs.«419213_j26508538151782_3_alg».proof.Proof.Gen.Pre_finite_inputs
import Idealize.ShloMosaic.Lib.ReduceAll
import Idealize.ShloMosaic.Lib.ValueIdx

/-!
# The precondition bounds every id

The printed precondition is the conjunction of two `jnp.all`s; the second says of every entry
of the integer input that it is, read as a signed word, at least `0` and at most `1000000`.
Stated as the equation "the predicate is the constant `1`", it gives that bound at every index.
-/

namespace Cert.Hist.Pre

open Idealize.ShloMosaic

/-- The shape of a scalar has exactly one index: its index function has an empty domain. -/
instance : Subsingleton Cert.Pre_finite_inputs.S_.Idx := ⟨fun a b => funext fun d => d.elim0⟩

/-- Under the precondition every id is a signed word in `[0, 1000000]`. -/
theorem ids_in_range (x0 : IVec Cert.Pre_finite_inputs.S65536x200 32) (x1 : FVec Ideal Cert.Pre_finite_inputs.S65536x200 .f32)
    (h : Cert.Pre_finite_inputs.fn (F := Ideal) x0 x1 = fun _ => 1#1) (i : Cert.Pre_finite_inputs.S65536x200.Idx) :
    0 ≤ (x0 i).toInt ∧ (x0 i).toInt ≤ 1000000 := by
  -- the predicate's one element is 1
  have h0 := congrFun h ValueIdx.ix0
  dsimp only [Cert.Pre_finite_inputs.fn] at h0
  -- it is the `and` of two reductions: keep the one over the integer input
  have hall := (IntOp.andi_eq_one.1 h0).2
  -- a reduction by `and` over all axes that is 1 met a 1 at every index
  have hi := Host.reduce_andi_all _ _ _ _ _ hall i
  -- that element is the `and` of the two signed comparisons of `x0 i` with the broadcast literals
  obtain ⟨hge, hle⟩ := IntOp.andi_eq_one.1 hi
  have hge' : IntOp.cmpi .sge (x0 i) 0#32 = 1#1 := hge
  have hle' : IntOp.cmpi .sle (x0 i) 1000000#32 = 1#1 := hle
  rw [IntOp.cmpi_sge] at hge'
  rw [IntOp.cmpi_sle] at hle'
  -- the two literals read as the integers they spell
  have z : (0#32 : BitVec 32).toInt = 0 := by decide
  have m : (1000000#32 : BitVec 32).toInt = 1000000 := by decide
  rw [z] at hge'
  rw [m] at hle'
  exact ⟨hge', hle'⟩

end Cert.Hist.Pre
-- ==== Proof.lean ====
/-
  The kernel is a weighted histogram of 13,107,200 ids into 1,000,001 bins, computed without a scatter:
  an id x is split into its base-1024 digits, x = 1024·a + b, and for every block of 2048 input positions the
  [1024,1024] matrix whose entry (a, b) is the sum of the weights of the block's positions with id 1024·a + b is
  formed as a product of two indicator matrices and added to an accumulator; each of two cores accumulates half of
  the positions, the host adds the two accumulators, lays the sum out flat and keeps the first 1,000,001 entries.
  The reference adds each position's weight at its id by a scatter-add into zeros. Over the extended reals both are,
  at bin i, the sum of the weights of the positions whose id is i: a product with an indicator is the weight or
  zero, and addition of extended reals is commutative and associative, so grouping the positions by block and by
  core changes nothing. No finiteness of the weights is used.

  The two differ only outside the ids' stated range: the reference reads a negative id −k as the bin 1000001 − k,
  where the kernel, shifting the id's word logically, drops it. The precondition therefore says, beside finiteness
  of the weights, that every id lies in [0, 1000000]; under it the reference's index normalisation is the identity
  and no update falls outside the bins.

  Frames: the two kernel programs' are the generated frame runs; the reference's is its generated run with the
  results dropped. The ideal pass rewrote nothing, so the idealization claim is trivial.
-/
import proofs.«419213_j26508538151782_3_alg».proof.Defs
import proofs.«419213_j26508538151782_3_alg».proof.Proof.Gen.Kernel
import proofs.«419213_j26508538151782_3_alg».proof.Proof.Gen.Kernel.Frame
import proofs.«419213_j26508538151782_3_alg».proof.Proof.Gen.KernelIdeal
import proofs.«419213_j26508538151782_3_alg».proof.Proof.Gen.KernelIdeal.Frame
import proofs.«419213_j26508538151782_3_alg».proof.Proof.Gen.ReferenceIdeal
import proofs.«419213_j26508538151782_3_alg».proof.Proof.Gen.ReferenceIdeal.Run
import proofs.«419213_j26508538151782_3_alg».proof.Proof.Gen.ReferenceIdeal.Read
import proofs.«419213_j26508538151782_3_alg».proof.Proof.Gen.Pre_finite_inputs
import proofs.«419213_j26508538151782_3_alg».proof.Proof.Flush
import proofs.«419213_j26508538151782_3_alg».proof.Proof.RefValue
import proofs.«419213_j26508538151782_3_alg».proof.Proof.PreRange

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the bin numbers and, at bin i, the sum of the weights of the positions whose id is i:
    the kernel by its accumulation over blocks and cores, the reference by its scatter-add under the ids' range. -/
theorem algebraic : Cert.algebraic_KernelIdeal_ReferenceIdeal := by
  intro m ρ m' ρ' hpre hagree
  refine ⟨fun _ => iotaInDim Cert.KernelIdeal.S1000001 32 0,
    fun c => fun i => Cert.Hist.hist (Cert.Hist.Acc.ids m c) (Cert.Hist.Acc.wts m c) (i 0).val,
    Cert.Hist.Flush.run m ρ, ?_⟩
  refine (θ_run Cert.ReferenceIdeal.defs _ _).mono
    (fun _ h c => ⟨(h c).1, (h c).2.1.trans ?_, (h c).2.2.1, (h c).2.2.2⟩)
    (Cert.ReferenceIdeal.Value.run (F := Ideal) m' ρ')
  rw [Cert.ReferenceIdeal.Read.val_main_v9_eq, (hagree c).1, (hagree c).2]
  funext i
  exact Cert.Hist.Ref.ref_v9 _ _ (fun j => Cert.Hist.Pre.ids_in_range _ _ (hpre c) j) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
